-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : IVec S4x2048 32) (main_arg2 : FVec F S2048x2048 .f32) (main_arg3 : FVec F S2048 .f32) (main_arg4 : FVec F S2048x2048 .f32) (main_arg5 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_v13 main_v16
-- ==== Kernel.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S8192x2048 : Shape := ⟨2, ![8192, 2048]⟩
abbrev S8192x1 : Shape := ⟨2, ![8192, 1]⟩
abbrev S1x2048 : Shape := ⟨2, ![1, 2048]⟩
abbrev S512x2048 : Shape := ⟨2, ![512, 2048]⟩
abbrev S1x512 : Shape := ⟨2, ![1, 512]⟩
abbrev S512x1 : Shape := ⟨2, ![512, 1]⟩
abbrev S512x512 : Shape := ⟨2, ![512, 512]⟩
abbrev S2048x512 : Shape := ⟨2, ![2048, 512]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x1, .i32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .i32⟩
  | .local _ .vmem, ⟨11, _⟩ => ⟨S512x1, .i32⟩
  | .local _ .vmem, ⟨12, _⟩ => ⟨S512x512, .f32⟩
  | .local _ .vmem, ⟨13, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x2048_S8192x2048 : S4x2048x2048.ShapeCasts S8192x2048
  shapeCasts_S4x2048_S8192x1 : S4x2048.ShapeCasts S8192x1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .i32 = 32 ∨ (Rect.block (s := S8192x1) S512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x2048.size a
  hwx0_6 : ∀ i : grid0.Coords, EltTy.bits .f32 = 32 ∨ (Rect.block (s := S8192x2048) S512x512.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4x2048 : Shape := ⟨2, ![4, 2048]⟩
abbrev S2048x2048 : Shape := ⟨2, ![2048, 2048]⟩
abbrev S2048 : Shape := ⟨1, ![2048]⟩
abbrev S1x1x2048 : Shape := ⟨3, ![1, 1, 2048]⟩
abbrev S4x2048x1 : Shape := ⟨3, ![4, 2048, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S4x2048x2048, .f32⟩
  | .hbm, ⟨7, _⟩ => ⟨S1x1x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Mix.lean ====
/-
  The function both programs compute, written once over the extended reals.

  Every token `(b, s)` carries a feature row `x[b, s, ·]` of length 2048 and a modality word `mo[b, s]`. Two affine
  maps ("experts") act on the row: `y ↦ ∑ₖ y k · wi[o, k] + bi[o]` and `y ↦ ∑ₖ y k · wt[o, k] + bt[o]`. The result at
  `(b, s, o)` blends the two with the modality read as a number `μ`:
      (text expert) · (1 − μ) + (image expert) · μ.
  `cell` is that one element; `mixed` lays it over the rank-3 result and `mixedRows` over the same data with the
  two token axes flattened to one axis of 8192 rows (row `b · 2048 + s`), which is the layout the tiled program works in.
  `mixed_of_rows` says the two layouts hold the same numbers.
-/
import Idealize.ShloMosaic.PureOps.Ideal.Laws
import Idealize.ShloMosaic.Lib.ValueIdx
import Idealize.ShloMosaic.Lib.Pipeline.Value

noncomputable section

namespace Cert.Mix

open Idealize.ShloMosaic Idealize.ShloMosaic.ValueIdx

/-- One element of the result: the text expert's affine form of the row `xr` weighted by `1 − μ`, plus the image
    expert's weighted by `μ`, where `μ` is the modality word read as a signed integer. The literal is the word of `1.0`. -/
def cell (xr wi wt : Fin 2048 → EReal) (bi bt : EReal) (mo : BitVec 32) : EReal :=
  ((∑ k : Fin 2048, xr k * wt k) + bt) * (Ideal.ofBits .f32 0x3F800000#32 - FloatOps.sitofp (F := Ideal) .f32 mo)
    + ((∑ k : Fin 2048, xr k * wi k) + bi) * FloatOps.sitofp (F := Ideal) .f32 mo

/-- The result over `[4, 2048, 2048]`: element `(b, s, o)` blends the two experts' outputs for token `(b, s)` and
    output feature `o`. -/
def mixed (x : FVec Ideal ⟨3, ![4, 2048, 2048]⟩ .f32) (mo : IVec ⟨2, ![4, 2048]⟩ 32)
    (wi : FVec Ideal ⟨2, ![2048, 2048]⟩ .f32) (bi : FVec Ideal ⟨1, ![2048]⟩ .f32)
    (wt : FVec Ideal ⟨2, ![2048, 2048]⟩ .f32) (bt : FVec Ideal ⟨1, ![2048]⟩ .f32) :
    FVec Ideal ⟨3, ![4, 2048, 2048]⟩ .f32 :=
  fun i => cell (fun k => x (ix3 (i 0) (i 1) k)) (fun k => wi (ix2 (i 2) k)) (fun k => wt (ix2 (i 2) k))
    (bi (ix1 (i 2))) (bt (ix1 (i 2))) (mo (ix2 (i 0) (i 1)))

/-- The same over flattened tokens: `X` is `[8192, 2048]` (one row per token), the biases are one-row matrices and the
    modality a one-column matrix. Element `(r, o)`. -/
def mixedRows (X : FVec Ideal ⟨2, ![8192, 2048]⟩ .f32) (Wi Wt : FVec Ideal ⟨2, ![2048, 2048]⟩ .f32)
    (Bi Bt : FVec Ideal ⟨2, ![1, 2048]⟩ .f32) (M : IVec ⟨2, ![8192, 1]⟩ 32) :
    FVec Ideal ⟨2, ![8192, 2048]⟩ .f32 :=
  fun i => cell (fun k => X (ix2 (i 0) k)) (fun k => Wi (ix2 (i 1) k)) (fun k => Wt (ix2 (i 1) k))
    (Bi (ix2 (0 : Fin 1) (i 1))) (Bt (ix2 (0 : Fin 1) (i 1))) (M (ix2 (i 0) (0 : Fin 1)))

end Cert.Mix

end
-- ==== Proof.RefMix.lean ====
/-
  The reference program, read one operation at a time, computes `Mix.mixed`.

  Its two `dot_general`s contract the feature axis of `x[b, s, ·]` against the second axis of each weight matrix
  (`∑ₖ x[b, s, k] · w[o, k]`); each bias is broadcast along the output-feature axis; the modality word is converted to
  a number and broadcast along the output-feature axis through a unit axis. Reading every stage at the index
  `(b, s, o)` leaves exactly the blend `Mix.cell` states, once each composed index function is recognised as the
  coordinate tuple it is.
-/
import proofs.«156798_j40785009442940_1_alg».proof.Proof.Gen.ReferenceIdeal.Read
import proofs.«156798_j40785009442940_1_alg».proof.Proof.Mix

noncomputable section

namespace Cert.ReferenceIdeal.RefValue

open Cert.ReferenceIdeal Cert.ReferenceIdeal.Gen Cert.ReferenceIdeal.Read
open Idealize.ShloMosaic Idealize.ShloMosaic.ValueIdx

/-- The last stage of the reference, as a function of the six arguments, is the blend of the two experts. -/
theorem stage_eq_mixed (x0 : (⟨S4x2048x2048, .f32⟩ : BufTy).Contents (Elt Ideal)) (x1 : (⟨S4x2048, .i32⟩ : BufTy).Contents (Elt Ideal))
    (x2 : (⟨S2048x2048, .f32⟩ : BufTy).Contents (Elt Ideal)) (x3 : (⟨S2048, .f32⟩ : BufTy).Contents (Elt Ideal))
    (x4 : (⟨S2048x2048, .f32⟩ : BufTy).Contents (Elt Ideal)) (x5 : (⟨S2048, .f32⟩ : BufTy).Contents (Elt Ideal)) :
    val_main_v16 (F := Ideal) x0 x1 x2 x3 x4 x5 = Cert.Mix.mixed x0 x1 x2 x3 x4 x5 := by
  funext i
  -- the contraction's operand indices: (b, s, k) on the left, (o, k) on the right, for either expert
  have eL4 : ∀ k : Fin 2048, lidx_main_v4 i k = ix3 (i 0) (i 1) k := fun k => funext fun a => by
    match a with | ⟨0, _⟩ => rfl | ⟨1, _⟩ => rfl | ⟨2, _⟩ => rfl
  have eR4 : ∀ k : Fin 2048, ridx_main_v4 i k = ix2 (i 2) k := fun k => funext fun a => by
    match a with | ⟨0, _⟩ => rfl | ⟨1, _⟩ => rfl
  have eL0 : ∀ k : Fin 2048, lidx_main_v0 i k = ix3 (i 0) (i 1) k := fun k => funext fun a => by
    match a with | ⟨0, _⟩ => rfl | ⟨1, _⟩ => rfl | ⟨2, _⟩ => rfl
  have eR0 : ∀ k : Fin 2048, ridx_main_v0 i k = ix2 (i 2) k := fun k => funext fun a => by
    match a with | ⟨0, _⟩ => rfl | ⟨1, _⟩ => rfl
  -- a bias is read at the output feature
  have eB5 : idx_main_v5 (idx_main_v6 i) = ix1 (i 2) := funext fun a => by
    match a with | ⟨0, _⟩ => rfl
  have eB1 : idx_main_v1 (idx_main_v2 i) = ix1 (i 2) := funext fun a => by
    match a with | ⟨0, _⟩ => rfl
  -- the modality is read at the token, in both of its uses
  have eM12 : idx_main_v9 (idx_main_v12 i) = ix2 (i 0) (i 1) := funext fun a => by
    match a with | ⟨0, _⟩ => rfl | ⟨1, _⟩ => rfl
  have eM14 : idx_main_v9 (idx_main_v14 i) = ix2 (i 0) (i 1) := funext fun a => by
    match a with | ⟨0, _⟩ => rfl | ⟨1, _⟩ => rfl
  simp only [val_main_v16_apply, val_main_v13_apply, val_main_v15_apply, val_main_v7_apply, val_main_v3_apply,
    val_main_v4_apply, val_main_v0_apply, val_main_v6_apply, val_main_v5_apply, val_main_v2_apply, val_main_v1_apply,
    val_main_v12_apply, val_main_v11_apply, val_main_v10_apply, val_main_cst_apply, val_main_v14_apply,
    val_main_v9_apply, val_main_v8_apply, eL4, eR4, eL0, eR0, eB5, eB1, eM12, eM14]
  rfl

end Cert.ReferenceIdeal.RefValue

end
-- ==== Proof.Tile.lean ====
/-
  One tile of the tiled program, read at an element.

  The body loads a `512 × 2048` block of token rows, a `512 × 2048` block of each expert's weight rows, a `1 × 512`
  block of each bias and a `512 × 1` block of modality words. It multiplies the token rows by each TRANSPOSED weight
  block on the matrix unit (so element `(p, q)` of a product is `∑ₖ rows[p, k] · weights[q, k]`), adds the bias row,
  and blends the two products by the modality column. Read at `(p, q)` the stored value is `Mix.cell` of row `p` of the
  token block, row `q` of each weight block, entry `q` of each bias and entry `p` of the modality column.
-/
import proofs.«156798_j40785009442940_1_alg».proof.Proof.Gen.KernelIdeal.Skeleton
import proofs.«156798_j40785009442940_1_alg».proof.Proof.Mix
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-! ## The matrix product's operand indices, axis by axis -/

/-- The left operand's row is the output's row. -/
theorem lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- The left operand's column is the contracted index. -/
theorem lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- The right operand's row is the contracted index. -/
theorem rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- The right operand's column is the output's column. -/
theorem rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- A `512 × 2048` by `2048 × 512` product into a zero accumulator, at `(p, q)`: the sum over the shared axis. -/
theorem matmul_at (l : FVec Ideal S512x2048 .bf16) (r : FVec Ideal S2048x512 .bf16) (p q : Fin 512) :
    matmul dot_S512x2048_S2048x512_S512x512_1_0_0_1_n_n none l r (constant S512x512 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The layout operations of the body -/

/-- A column `[512, 1]` broadcast along the second axis reads, at `(p, q)`, the column's entry `p`. -/
theorem column_at {α : Type} (v : S512x1.Idx → α) (p q : Fin 512) :
    broadcastTo S512x512 v broadcasts_S512x1_S512x512 (ix2 p q) = v (ix2 p (0 : Fin 1)) := by
  refine broadcastTo_apply v broadcasts_S512x1_S512x512 (ix2 p q) (ix2 p (0 : Fin 1)) fun ax => ?_
  match ax with
  | ⟨0, _⟩ => rfl
  | ⟨1, _⟩ => rfl

/-- A row `[1, 512]` broadcast along the first axis reads, at `(p, q)`, the row's entry `q`. -/
theorem row_at {α : Type} (v : S1x512.Idx → α) (p q : Fin 512) :
    broadcastTo S512x512 v broadcasts_S1x512_S512x512 (ix2 p q) = v (ix2 (0 : Fin 1) q) :=
  broadcastTo_1b_ab_apply v broadcasts_S1x512_S512x512 p q

/-- A transposed weight block reads, at `(k, q)`, the block at `(q, k)`. -/
theorem transposed_at (v : FVec Ideal S512x2048 .bf16) (k : Fin 2048) (q : Fin 512) :
    transpose S2048x512 [1, 0] v transposes_S512x2048_p1_0_S2048x512 (ix2 k q) = v (ix2 q k) :=
  transpose_ix2_apply v transposes_S512x2048_p1_0_S2048x512 k q

/-! ## The stored value at an element -/

/-- The value the body stores, at `(p, q)`: the blend of the two experts for row `p` of the token block and
    row `q` of the weight blocks. A change of float format is the identity on the extended reals, so the
    half-precision operands of the matrix unit are the loaded numbers themselves. -/
theorem payload_at (x0 x1 x2 : Vec Ideal S512x2048 .f32) (x3 x4 : Vec Ideal S1x512 .f32) (x5 : Vec Ideal S512x1 .i32)
    (p q : Fin 512) :
    k0_pay1 (F := Ideal) x0 x1 x2 x3 x4 x5 (ix2 p q)
      = Cert.Mix.cell (fun k => x0 (ix2 p k)) (fun k => x1 (ix2 q k)) (fun k => x2 (ix2 q k))
          (x3 (ix2 (0 : Fin 1) q)) (x4 (ix2 (0 : Fin 1) q)) (x5 (ix2 p (0 : Fin 1))) := by
  unfold k0_pay1
  simp only [addf_apply, mulf_apply, subf_apply, broadcast_apply, sitofp_apply, matmul_at, row_at, column_at,
    truncf_apply, shapeCast_self]
  -- inside each sum the right factor is the transposed weight block at `(k, q)`, that is the block at `(q, k)`
  have ht : ∀ (v : FVec Ideal S512x2048 .bf16) (k : Fin 2048),
      transpose S2048x512 [1, 0] v transposes_S512x2048_p1_0_S2048x512 (ix2 k q) = v (ix2 q k) :=
    fun v k => transposed_at v k q
  simp only [ht, truncf_apply]
  rfl

/-- The stored value at `(p, q)` is element `i` of `Mix.mixedRows` of six arrays, as soon as the loaded blocks hold the
    arrays' entries that element reads: row `i 0` of the token matrix, row `i 1` of each weight matrix, entry
    `i 1` of each bias row and entry `i 0` of the modality column. -/
theorem payload_eq_mixedRows (X : FVec Ideal S8192x2048 .f32) (Wi Wt : FVec Ideal S2048x2048 .f32)
    (Bi Bt : FVec Ideal S1x2048 .f32) (M : IVec S8192x1 32)
    (x0 x1 x2 : Vec Ideal S512x2048 .f32) (x3 x4 : Vec Ideal S1x512 .f32) (x5 : Vec Ideal S512x1 .i32)
    (p q : Fin 512) (i : S8192x2048.Idx)
    (h0 : ∀ k : Fin 2048, x0 (ix2 p k) = X (ix2 (i 0) k))
    (h1 : ∀ k : Fin 2048, x1 (ix2 q k) = Wi (ix2 (i 1) k))
    (h2 : ∀ k : Fin 2048, x2 (ix2 q k) = Wt (ix2 (i 1) k))
    (h3 : x3 (ix2 (0 : Fin 1) q) = Bi (ix2 (0 : Fin 1) (i 1)))
    (h4 : x4 (ix2 (0 : Fin 1) q) = Bt (ix2 (0 : Fin 1) (i 1)))
    (h5 : x5 (ix2 p (0 : Fin 1)) = M (ix2 (i 0) (0 : Fin 1))) :
    k0_pay1 (F := Ideal) x0 x1 x2 x3 x4 x5 (ix2 p q) = Cert.Mix.mixedRows X Wi Wt Bi Bt M i := by
  rw [payload_at]
  unfold Cert.Mix.mixedRows
  simp only [h0, h1, h2, h3, h4, h5]

end Cert.KernelIdeal.Tile

end
-- ==== Proof.Rows.lean ====
/-
  From tiles to the whole matrix of token rows.

  The grid has `4 × 16` points; point `(j, i)` works on token rows `512·i … 512·i + 511` and output features
  `512·j … 512·j + 511`. Its token block and modality block are block `i` of their arrays, its weight and bias
  blocks are block `j` of theirs, and what it writes back is block `(i, j)` of the `8192 × 2048` output. Since
  every element of a tile is `Mix.cell` of exactly the array entries `Mix.mixedRows` reads for the element's
  position in the whole output, each written block is a block of `Mix.mixedRows`; and since the `16 × 4` blocks tile
  the output, the output array ends holding `Mix.mixedRows` of the arrays as the region found them.
-/
import proofs.«156798_j40785009442940_1_alg».proof.Proof.Gen.KernelIdeal.Frame
import proofs.«156798_j40785009442940_1_alg».proof.Proof.Tile
import Idealize.ShloMosaic.Lib.Pipeline.Value

set_option maxRecDepth 16384

noncomputable section

namespace Cert.KernelIdeal.Rows

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Every load and the store of the body start at the origin of their buffers. -/
theorem origin2 : (![0, 0] : Fin 2 → Nat) = fun _ => 0 := funext fun a => by fin_cases a <;> rfl

/-- What the region's output array is to hold: the blend over flattened tokens, of the arrays as the region finds
    them. -/
abbrev rowsOf (c : Dev nD) : S8192x2048.Idx → Elt Ideal .f32 :=
  Cert.Mix.mixedRows (V m c main_v0) (V m c main_arg2) (V m c main_arg4) (V m c main_v2) (V m c main_v3) (V m c main_v1)

/-- Which block of its array each window is on at a grid point, relative to the output's block `(i, j)`: the
    token and modality blocks follow the output's row block, the weight and bias blocks its column block, and
    every other block coordinate is `0`. The output's block coordinates stay inside `16 × 4`. -/
theorem block_facts : ∀ t : Fin cfg0.N,
      win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = win0_6.index t (0 : Fin 2) ∧ win0_5.index t (1 : Fin 2) = 0
    ∧ win0_6.index t (0 : Fin 2) ≤ 15 ∧ win0_6.index t (1 : Fin 2) ≤ 3 :=
  (by decide +kernel : ∀ t : Fin grid0.N, _)

/-- Every block `(i, j)` of the output is some grid point's. -/
theorem block_onto : ∀ (q0 : Fin 16) (q1 : Fin 4), ∃ t : Fin cfg0.N, win0_6.index t = ![q0.val, q1.val] :=
  (by decide +kernel : ∀ (q0 : Fin 16) (q1 : Fin 4), ∃ t : Fin grid0.N, win0_6.index t = ![q0.val, q1.val])

/-- WHAT A POINT WRITES BACK is its block of `rowsOf`. -/
theorem flushed_eq (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero origin2]
  simp only [View.ld_unit_zero (S := S512x2048) origin2, View.ld_unit_zero (S := S1x512) origin2,
    View.ld_unit_zero (S := S512x1) origin2]
  obtain ⟨e00, e01, e10, e11, e20, e21, e30, e31, e40, e41, e50, e51, -, -⟩ := block_facts t
  funext j
  obtain ⟨p, q, rfl⟩ : ∃ (p : Fin 512) (q : Fin 512), j = ix2 p q := ⟨j 0, j 1, eq_ix2 j⟩
  have hp : p.val < 512 := p.isLt
  have hq : q.val < 512 := q.isLt
  refine payload_eq_mixedRows (V m c main_v0) (V m c main_arg2) (V m c main_arg4) (V m c main_v2) (V m c main_v3)
    (V m c main_v1) (iblk m c 0 t) (iblk m c 1 t) (iblk m c 2 t) (iblk m c 3 t) (iblk m c 4 t) (iblk m c 5 t) p q
    (((cfg0.win 6).blk t).view.emb (ix2 p q)) ?_ ?_ ?_ ?_ ?_ ?_
  · intro k
    show V m c main_v0 (((cfg0.win 0).blk t).view.emb (ix2 p k)) = V m c main_v0 _
    refine congrArg _ (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 2048 + 1 * k.val = k.val; omega
  · intro k
    show V m c main_arg2 (((cfg0.win 1).blk t).view.emb (ix2 q k)) = V m c main_arg2 _
    refine congrArg _ (funext fun a => Fin.ext ?_)
    match a with
    | ⟨0, _⟩ => show win0_1.index t (0 : Fin 2) * 512 + 1 * q.val = win0_6.index t (1 : Fin 2) * 512 + 1 * q.val; omega
    | ⟨1, _⟩ => show win0_1.index t (1 : Fin 2) * 2048 + 1 * k.val = k.val; omega
  · intro k
    show V m c main_arg4 (((cfg0.win 2).blk t).view.emb (ix2 q k)) = V m c main_arg4 _
    refine congrArg _ (funext fun a => Fin.ext ?_)
    match a with
    | ⟨0, _⟩ => show win0_2.index t (0 : Fin 2) * 512 + 1 * q.val = win0_6.index t (1 : Fin 2) * 512 + 1 * q.val; omega
    | ⟨1, _⟩ => show win0_2.index t (1 : Fin 2) * 2048 + 1 * k.val = k.val; omega
  · show V m c main_v2 (((cfg0.win 3).blk t).view.emb (ix2 (0 : Fin 1) q)) = V m c main_v2 _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = win0_6.index t (1 : Fin 2) * 512 + 1 * q.val; omega
  · show V m c main_v3 (((cfg0.win 4).blk t).view.emb (ix2 (0 : Fin 1) q)) = V m c main_v3 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = win0_6.index t (1 : Fin 2) * 512 + 1 * q.val; omega
  · show V m c main_v1 (((cfg0.win 5).blk t).view.emb (ix2 p (0 : Fin 1))) = V m c main_v1 _
    refine congrArg _ (funext fun a => Fin.ext ?_)
    match a with
    | ⟨0, _⟩ => show win0_5.index t (0 : Fin 2) * 512 + 1 * p.val = win0_6.index t (0 : Fin 2) * 512 + 1 * p.val; omega
    | ⟨1, _⟩ => show win0_5.index t (1 : Fin 2) * 1 + 1 * 0 = 0; omega

/-- An index of the output is in point `t`'s block iff each coordinate is in the block's range on its axis. -/
theorem mem_block (t : Fin cfg0.N) (i : S8192x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4).slice (win0_6.rect t)).set ↔ _
  rw [View.set_slice_whole, Rect.mem_set_unit]
  exact Iff.rfl

/-- The blocks tile the output: element `(r, o)` is in the block of the point on row block `r / 512` and column
    block `o / 512`. -/
theorem covered (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := block_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- THE OUTPUT ARRAY after the region: the blend over flattened tokens. -/
theorem output_eq (c : Dev nD) : (dats m 0 c).arrAt 6 cfg0.N = rowsOf m c :=
  (dats m 0 c).arrAt_eq_of_cover 6 (rowsOf m c) (fun t _ => flushed_eq m c t) covered

end Cert.KernelIdeal.Rows

end
-- ==== Proof.Flatten.lean ====
/-
  Flattening the two token axes changes nothing but the layout.

  A `[4, 2048, 2048]` array reshaped to `[8192, 2048]` puts token `(b, s)` on row `b · 2048 + s`; a `[4, 2048]` array
  reshaped to a column `[8192, 1]` does the same to its entries; a vector `[2048]` reshaped to a one-row matrix keeps
  its entries in order. So `Mix.mixedRows` of the reshaped arguments, reshaped back to rank three, is
  `Mix.mixed` of the arguments: both read the same row of `x`, the same weight rows, biases and modality word.
-/
import proofs.«156798_j40785009442940_1_alg».proof.Proof.Mix
import Idealize.ShloMosaic.Lib.ValueLayout

noncomputable section

namespace Cert.Mix

open Idealize.ShloMosaic Idealize.ShloMosaic.ValueIdx

/-- The blend over flattened tokens, computed from the reshaped arguments and reshaped back, is the blend over
    `[4, 2048, 2048]`. -/
theorem mixed_of_rows (x : FVec Ideal ⟨3, ![4, 2048, 2048]⟩ .f32) (mo : IVec ⟨2, ![4, 2048]⟩ 32)
    (wi : FVec Ideal ⟨2, ![2048, 2048]⟩ .f32) (bi : FVec Ideal ⟨1, ![2048]⟩ .f32)
    (wt : FVec Ideal ⟨2, ![2048, 2048]⟩ .f32) (bt : FVec Ideal ⟨1, ![2048]⟩ .f32)
    (hx : (⟨3, ![4, 2048, 2048]⟩ : Shape).ShapeCasts ⟨2, ![8192, 2048]⟩)
    (hm : (⟨2, ![4, 2048]⟩ : Shape).ShapeCasts ⟨2, ![8192, 1]⟩)
    (hb : (⟨1, ![2048]⟩ : Shape).ShapeCasts ⟨2, ![1, 2048]⟩)
    (ho : (⟨2, ![8192, 2048]⟩ : Shape).ShapeCasts ⟨3, ![4, 2048, 2048]⟩) :
    shapeCast ⟨3, ![4, 2048, 2048]⟩
        (mixedRows (shapeCast ⟨2, ![8192, 2048]⟩ x hx) wi wt (shapeCast ⟨2, ![1, 2048]⟩ bi hb)
          (shapeCast ⟨2, ![1, 2048]⟩ bt hb) (shapeCast ⟨2, ![8192, 1]⟩ mo hm)) ho
      = mixed x mo wi bi wt bt := by
  funext i
  obtain ⟨b, s, o, rfl⟩ : ∃ (b : Fin 4) (s : Fin 2048) (o : Fin 2048), i = ix3 b s o := ⟨i 0, i 1, i 2, eq_ix3 i⟩
  have hb4 : b.val < 4 := b.isLt
  have hs : s.val < 2048 := s.isLt
  -- token `(b, s)` is row `b · 2048 + s`
  let r : Fin 8192 := ⟨b.val * 2048 + s.val, by omega⟩
  have eo : shapeCast ⟨3, ![4, 2048, 2048]⟩
        (mixedRows (shapeCast ⟨2, ![8192, 2048]⟩ x hx) wi wt (shapeCast ⟨2, ![1, 2048]⟩ bi hb)
          (shapeCast ⟨2, ![1, 2048]⟩ bt hb) (shapeCast ⟨2, ![8192, 1]⟩ mo hm)) ho (ix3 b s o)
      = mixedRows (shapeCast ⟨2, ![8192, 2048]⟩ x hx) wi wt (shapeCast ⟨2, ![1, 2048]⟩ bi hb)
          (shapeCast ⟨2, ![1, 2048]⟩ bt hb) (shapeCast ⟨2, ![8192, 1]⟩ mo hm) (ix2 r o) :=
    shapeCast_apply _ ho (ix3 b s o) (ix2 r o) (by
      rw [Shape.rowMajor_val_two, Shape.rowMajor_val_three]; rfl)
  have ex : ∀ k : Fin 2048, shapeCast ⟨2, ![8192, 2048]⟩ x hx (ix2 r k) = x (ix3 b s k) := fun k =>
    shapeCast_apply x hx (ix2 r k) (ix3 b s k) (by
      rw [Shape.rowMajor_val_two, Shape.rowMajor_val_three]; rfl)
  have ebi : shapeCast ⟨2, ![1, 2048]⟩ bi hb (ix2 (0 : Fin 1) o) = bi (ix1 o) := shapeCast_a_1a_apply bi hb 0 o
  have ebt : shapeCast ⟨2, ![1, 2048]⟩ bt hb (ix2 (0 : Fin 1) o) = bt (ix1 o) := shapeCast_a_1a_apply bt hb 0 o
  have em : shapeCast ⟨2, ![8192, 1]⟩ mo hm (ix2 r (0 : Fin 1)) = mo (ix2 b s) :=
    shapeCast_apply mo hm (ix2 r (0 : Fin 1)) (ix2 b s) (by
      rw [Shape.rowMajor_val_two, Shape.rowMajor_val_two]
      show b.val * 2048 + s.val = (b.val * 2048 + s.val) * 1 + 0
      omega)
  rw [eo]
  show cell (fun k => shapeCast ⟨2, ![8192, 2048]⟩ x hx (ix2 r k)) (fun k => wi (ix2 o k)) (fun k => wt (ix2 o k))
      (shapeCast ⟨2, ![1, 2048]⟩ bi hb (ix2 (0 : Fin 1) o)) (shapeCast ⟨2, ![1, 2048]⟩ bt hb (ix2 (0 : Fin 1) o))
      (shapeCast ⟨2, ![8192, 1]⟩ mo hm (ix2 r (0 : Fin 1)))
    = cell (fun k => x (ix3 b s k)) (fun k => wi (ix2 o k)) (fun k => wt (ix2 o k)) (bi (ix1 o)) (bt (ix1 o)) (mo (ix2 b s))
  simp only [ex, ebi, ebt, em]

end Cert.Mix

end
-- ==== Proof.Whole.lean ====
/-
  The tiled program from end to end.

  Before the region four reshapes lay the arguments out for the tiles: `x` as `8192 × 2048` token rows, the modality
  as an `8192 × 1` column, each bias as a `1 × 2048` row. The region leaves its output array at `Mix.mixedRows` of
  those (Rows.lean), and one reshape after it turns the `8192 × 2048` output back into `[4, 2048, 2048]`. By
  Flatten.lean that is `Mix.mixed` of the six arguments. Every argument array ends as it began.
-/
import proofs.«156798_j40785009442940_1_alg».proof.Proof.Gen.KernelIdeal.Frame
import proofs.«156798_j40785009442940_1_alg».proof.Proof.Rows
import proofs.«156798_j40785009442940_1_alg».proof.Proof.Flatten
import Idealize.ShloMosaic.Lib.StableHlo.Run

set_option maxRecDepth 16384

noncomputable section

namespace Cert.KernelIdeal.Whole

open Cert.KernelIdeal Cert.KernelIdeal.Gen Cert.KernelIdeal.Rows
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-! ## The arrays as the region finds them -/

/-- The token rows: `x` reshaped to `8192 × 2048`. -/
theorem entry_rows (c : Dev nD) :
    (V m c main_v0 : S8192x2048.Idx → Elt Ideal .f32)
      = shapeCast S8192x2048 (m ((c : Thread nD τ).loc main_arg0)) shapeCasts_S4x2048x2048_S8192x2048 := by
  show StableHlo.after hostOps0 (fun b => m (c, b)) (Proc.devRef .tc main_v0) = _
  after_results
  rfl

/-- The modality column: the modality words reshaped to `8192 × 1`. -/
theorem entry_modality (c : Dev nD) :
    (V m c main_v1 : S8192x1.Idx → Elt Ideal .i32)
      = shapeCast S8192x1 (m ((c : Thread nD τ).loc main_arg1)) shapeCasts_S4x2048_S8192x1 := by
  show StableHlo.after hostOps0 (fun b => m (c, b)) (Proc.devRef .tc main_v1) = _
  after_results
  rfl

/-- The image expert's bias as a one-row matrix. -/
theorem entry_bias_img (c : Dev nD) :
    (V m c main_v2 : S1x2048.Idx → Elt Ideal .f32)
      = shapeCast S1x2048 (m ((c : Thread nD τ).loc main_arg3)) shapeCasts_S2048_S1x2048 := by
  show StableHlo.after hostOps0 (fun b => m (c, b)) (Proc.devRef .tc main_v2) = _
  after_results
  rfl

/-- The text expert's bias as a one-row matrix. -/
theorem entry_bias_text (c : Dev nD) :
    (V m c main_v3 : S1x2048.Idx → Elt Ideal .f32)
      = shapeCast S1x2048 (m ((c : Thread nD τ).loc main_arg5)) shapeCasts_S2048_S1x2048 := by
  show StableHlo.after hostOps0 (fun b => m (c, b)) (Proc.devRef .tc main_v3) = _
  after_results
  rfl

/-! ## The result -/

/-- The program's result buffer after the last reshape: the region's output array, reshaped to rank three. -/
theorem result_eq (c : Dev nD) :
    Pipeline.afterTail₀ cfgs (dats m) 0 (V0 m) [hostOps1] c main_v5
      = shapeCast S4x2048x2048 (rowsOf m c) shapeCasts_S8192x2048_S4x2048x2048 := by
  unfold Pipeline.afterTail₀
  show StableHlo.after hostOps1 _ (Proc.devRef .tc main_v5) = _
  after_results
  exact congrArg (fun a => shapeCast S4x2048x2048 a shapeCasts_S8192x2048_S4x2048x2048)
    ((Pipeline.withArrays_arr spec0 launch0.win.arr_inj c _ _ 6).trans (output_eq m c))

/-- … which is the blend of the two experts over `[4, 2048, 2048]`, as a function of the six arguments. -/
theorem result_eq_mixed (c : Dev nD) :
    Pipeline.afterTail₀ cfgs (dats m) 0 (V0 m) [hostOps1] c main_v5
      = Cert.Mix.mixed (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [result_eq]
  show shapeCast S4x2048x2048 (Cert.Mix.mixedRows (V m c main_v0) (V m c main_arg2) (V m c main_arg4) (V m c main_v2)
    (V m c main_v3) (V m c main_v1)) shapeCasts_S8192x2048_S4x2048x2048 = _
  rw [entry_rows, entry_modality, entry_bias_img, entry_bias_text, V_main_arg2, V_main_arg4]
  exact Cert.Mix.mixed_of_rows _ _ _ _ _ _ shapeCasts_S4x2048x2048_S8192x2048 shapeCasts_S4x2048_S8192x1
    shapeCasts_S2048_S1x2048 shapeCasts_S8192x2048_S4x2048x2048

/-- THE RUN: every weakly fair execution terminates with the result buffer at the blend of the two experts and the
    six argument arrays unchanged. -/
theorem run : θ_run defs (onTc (τ := τ) (main (F := Ideal))) ⟨m, fun _ => 0, ρ⟩ fun r => ∀ c : Dev nD,
      r.2.mem ((c.tc : Thread nD τ).loc main_v5)
        = Cert.Mix.mixed (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (result_eq_mixed m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.Whole

end
-- ==== Proof.lean ====
/-
  A dense dual-expert linear layer with a per-token modality blend, tiled, against its plain formulation.

  Both programs compute, for token `(b, s)` and output feature `o`,
      (∑ₖ x[b, s, k] · W_text[o, k] + b_text[o]) · (1 − μ[b, s]) + (∑ₖ x[b, s, k] · W_img[o, k] + b_img[o]) · μ[b, s],
  with `μ` the modality word read as a number: `Cert.Mix.mixed` (Proof/Mix.lean). The reference does it with two
  contractions over the whole arrays (Proof/RefMix.lean). The tiled program flattens the tokens to 8192 rows, and
  on a `4 × 16` grid multiplies a `512 × 2048` block of rows by the transposed `512 × 2048` blocks of both weight
  matrices, adds the bias rows and blends by the modality column (Proof/Tile.lean: one tile at an element;
  Proof/Rows.lean: the tiles cover the `8192 × 2048` output; Proof/Flatten.lean and Proof/Whole.lean: the reshapes
  around the region). Over the extended reals a change of float format is the identity and a sum does not depend
  on how it is tiled, so the two results agree element by element; no property of the inputs is used beyond their
  shapes, and the idealization rewrote nothing (its ledger is empty).
-/
import proofs.«156798_j40785009442940_1_alg».proof.Defs
import proofs.«156798_j40785009442940_1_alg».proof.Proof.Gen.Kernel
import proofs.«156798_j40785009442940_1_alg».proof.Proof.Gen.Kernel.Skeleton
import proofs.«156798_j40785009442940_1_alg».proof.Proof.Gen.Kernel.Launch
import proofs.«156798_j40785009442940_1_alg».proof.Proof.Gen.Kernel.Points
import proofs.«156798_j40785009442940_1_alg».proof.Proof.Gen.Kernel.Frame
import proofs.«156798_j40785009442940_1_alg».proof.Proof.Gen.KernelIdeal
import proofs.«156798_j40785009442940_1_alg».proof.Proof.Gen.KernelIdeal.Skeleton
import proofs.«156798_j40785009442940_1_alg».proof.Proof.Gen.KernelIdeal.Launch
import proofs.«156798_j40785009442940_1_alg».proof.Proof.Gen.KernelIdeal.Points
import proofs.«156798_j40785009442940_1_alg».proof.Proof.Gen.KernelIdeal.Frame
import proofs.«156798_j40785009442940_1_alg».proof.Proof.Gen.ReferenceIdeal
import proofs.«156798_j40785009442940_1_alg».proof.Proof.Gen.ReferenceIdeal.Run
import proofs.«156798_j40785009442940_1_alg».proof.Proof.Gen.ReferenceIdeal.Read
import proofs.«156798_j40785009442940_1_alg».proof.Proof.Gen.Pre_finite_inputs
import proofs.«156798_j40785009442940_1_alg».proof.Proof.RefMix
import proofs.«156798_j40785009442940_1_alg».proof.Proof.Whole
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference runs and leaves its arguments as they were: its run, with the result's conjunct dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the six arguments, both programs end with the blend of the
    two experts in their result buffers: the tiled program by Proof/Whole.lean, the reference by its run read stage
    by stage (Proof/RefMix.lean). -/
theorem algebraic : Cert.algebraic_KernelIdeal_ReferenceIdeal := by
  intro m ρ m' ρ' _ hagree
  refine ⟨fun c => Cert.Mix.mixed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v16_eq _ _ _ _ _ _).trans
    (Cert.ReferenceIdeal.RefValue.stage_eq_mixed _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
